-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S32768x2048 .f32) (main_arg1 : FVec F S2048 .f32) (main_arg2 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S32768x2048 : Shape := ⟨2, ![32768, 2048]⟩
abbrev S2048 : Shape := ⟨1, ![2048]⟩
abbrev S512x2048 : Shape := ⟨2, ![512, 2048]⟩
abbrev S1x2048 : Shape := ⟨2, ![1, 2048]⟩

abbrev nBuf : Space → Nat
  | .hbm => 4
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S2048, .f32⟩
  | .local _ .vmem, ⟨3, _⟩ => ⟨S2048, .f32⟩
  | .local _ .vmem, ⟨4, _⟩ => ⟨S512x2048, .f32⟩
  | .local _ .vmem, ⟨5, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048.size a ≤ S2048.size a
  hwx0_1 : ∀ i : grid0.Coords, EltTy.bits .f32 = 32 ∨ (Rect.block (s := S2048) S2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048.size a ≤ S2048.size a
  hwx0_2 : ∀ i : grid0.Coords, EltTy.bits .f32 = 32 ∨ (Rect.block (s := S2048) S2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S32768x2048.size a
  hwx0_3 : ∀ i : grid0.Coords, EltTy.bits .f32 = 32 ∨ (Rect.block (s := S32768x2048) S512x2048.size (cc0_transform_3 i) (hinb0_3 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048 : Shape := ⟨1, ![2048]⟩
abbrev S1x2048 : Shape := ⟨2, ![1, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S1x2048, .f32⟩
  | .hbm, ⟨4, _⟩ => ⟨S32768x2048, .f32⟩
  | .hbm, ⟨5, _⟩ => ⟨S32768x2048, .f32⟩
  | .hbm, ⟨6, _⟩ => ⟨S1x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)

variable [Facts₀]

class Facts : Prop extends Facts₀ where

variable [Facts]
-- ==== Proof.Spec.lean ====
/-
  The function both programs compute, at the exact instance (floats are extended reals, every operation exact).

  Inputs: a matrix x of 32768 rows and 2048 columns, and two vectors w and b of length 2048. The result has x's shape,
  and at row r and column k it is

      σ (4 · (x[r,k] · w[k] + b[k])),      σ(y) = 1 / (1 + e^(−y)),

  the logistic function, read on the extended reals with its limits σ(−∞) = 0 and σ(+∞) = 1. The entry depends on
  ONE entry of x and on the k-th entries of w and b: scaling each column by its weight, shifting it by its bias.

  The two programs spell σ differently. One applies the logistic function as a single operation; the other negates,
  exponentiates, adds one and divides one by the sum. On the extended reals these are the same function by definition of
  the logistic there, once the bit pattern 0x3F800000 is read as the number one (`logistic_expanded`). No algebraic law
  beyond that is used, so nothing here needs the inputs to be finite.
-/
import Idealize.ShloMosaic.PureOps.Ideal
import Idealize.ShloMosaic.Lib.ValueIdx
import Idealize.ShloMosaic.Lib.IdealHost

noncomputable section

namespace Cert.ColumnAffineSigmoid

open Idealize.ShloMosaic Idealize.ShloMosaic.ValueIdx

/-- The matrix shape: 32768 rows, 2048 columns. -/
abbrev Mat : Shape := ⟨2, ![32768, 2048]⟩
/-- The shape of the per-column weight and bias. -/
abbrev Cols : Shape := ⟨1, ![2048]⟩

/-- The column of a matrix index, as an index of a per-column vector. -/
abbrev col (i : Mat.Idx) : Cols.Idx := ix1 (i 1)

/-- The common result: at index `i` (row `i 0`, column `i 1`), the logistic function of four times the affine
    image of `x i` under the column's weight and bias. The literal is the f32 pattern of 4, the same word in both programs. -/
def G (x : FVec Ideal Mat .f32) (w b : FVec Ideal Cols .f32) : FVec Ideal Mat .f32 := fun i =>
  Ideal.logistic (Ideal.ofBits .f32 0x40800000#32 * (x i * w (col i) + b (col i)))

/-- The logistic function is its expansion 1 / (1 + e^(−y)) written with the host's negation, exponential, sum and
    quotient and with the bit pattern of one for both ones: the pattern is the number one, and the rest is the definition
    of the logistic function on the extended reals (its values at ±∞ included: e^(+∞) = +∞ and 1 / +∞ = 0 give σ(−∞) = 0;
    e^(−∞) = 0 gives σ(+∞) = 1). -/
theorem logistic_expanded (y : Ideal .f32) :
    Ideal.logistic y
      = FloatOps.hostDivf (FloatOps.ofBits (F := Ideal) .f32 0x3F800000#32)
          (FloatOps.addf (FloatOps.ofBits (F := Ideal) .f32 0x3F800000#32) (FloatOps.hostUnary .exp (FloatOps.hostNegf y))) := by
  rw [Ideal.ofBits_def, Ideal.ofBits_one_f32]
  rfl

end Cert.ColumnAffineSigmoid

end
-- ==== Proof.KernelValue.lean ====
/-
  What the kernel leaves in its result array, at the exact instance.

  The kernel walks the 32768 rows in 64 steps of 512 rows. At step t it is given rows 512·t … 512·t + 511 of x (all
  2048 columns), the whole of w and the whole of b, and writes the same rows of the result. Inside the block, at row p and
  column q, it writes σ(4 · (xblock[p,q] · w[q] + b[q])): the weight and the bias are laid out as one row and repeated down
  the 512 rows before the elementwise product and sum.

  Three facts turn this into a statement about the whole array:
    • where each block sits (`index_facts`): x's and the result's blocks at step t both start at row 512·t and column 0,
      w's and b's single block starts at 0, so entry (p, q) of the block is entry (512·t + p, q) of the array and reads
      w and b at q, the array entry's own column;
    • hence step t writes exactly block t of the function `G` of the three argument arrays (`step_writes`);
    • every row r lies in the block of step r / 512, so the blocks cover the array (`blocks_cover`) and the result array ends
      holding `G` everywhere (`result_array`).
-/
import proofs.«141163_j24807731102291_1_alg».proof.Proof.Gen.KernelIdeal.Value
import proofs.«141163_j24807731102291_1_alg».proof.Proof.Spec

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Cert.ColumnAffineSigmoid
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The column of an index of the 512 × 2048 block, as an index of a length-2048 vector. -/
abbrev bcol (j : S512x2048.Idx) : S2048.Idx := ix1 (j 1)

/-- Where the blocks sit, decided over the 64 steps: at step `t` the block of x and the block of the result have block
    index (t, 0); w and b have the one block 0. -/
theorem index_facts : ∀ t : Fin cfg0.N,
    win0_0.index t (0 : Fin 2) = t.val ∧ win0_0.index t (1 : Fin 2) = 0
    ∧ win0_1.index t (0 : Fin 1) = 0 ∧ win0_2.index t (0 : Fin 1) = 0
    ∧ win0_3.index t (0 : Fin 2) = t.val ∧ win0_3.index t (1 : Fin 2) = 0 :=
  (by decide +kernel : ∀ t : Fin grid0.N, _)

/-- One step's block as a function of the three blocks it is given: at (p, q) the logistic function of four times
    `x0[p,q] · x1[q] + x2[q]`. The generated value leg reads the body's one store index by index; what is added here is
    that its loads take the whole blocks and that its index maps are the identity on (p, q) and the projection to q. -/
theorem block_apply (x0 : FVec Ideal S512x2048 .f32) (x1 x2 : FVec Ideal S2048 .f32) (j : S512x2048.Idx) :
    out0_3 (F := Ideal) x0 x1 x2 j = Ideal.logistic (Ideal.ofBits .f32 0x40800000#32 * (x0 j * x1 (bcol j) + x2 (bcol j))) := by
  unfold out0_3
  rw [Value.canon3_eq]
  simp only [View.ld_unit_zero (S := S512x2048) origin2, View.ld_unit_zero (S := S2048) origin1]
  have e0 : Value.ix3_0 j = j := by funext a; match a with | ⟨0, _⟩ => rfl | ⟨1, _⟩ => rfl
  have e1 : Value.ix3_1 j = bcol j := by funext a; match a with | ⟨0, _⟩ => rfl
  have e2 : Value.ix3_2 j = bcol j := by funext a; match a with | ⟨0, _⟩ => rfl
  show FloatOps.logistic (FloatOps.mulf (Scalar.ofBits .f32 0x40800000#32) (FloatOps.addf (FloatOps.mulf (x0 (Value.ix3_0 j)) (x1 (Value.ix3_1 j))) (x2 (Value.ix3_2 j)))) = _
  rw [e0, e1, e2]
  rfl

/-- The three argument arrays as the region finds them, at their literal types (so that their entries multiply and add as
    extended reals). -/
abbrev xarr (c : Dev nD) : FVec Ideal S32768x2048 .f32 := V m c main_arg0
abbrev warr (c : Dev nD) : FVec Ideal S2048 .f32 := V m c main_arg1
abbrev barr (c : Dev nD) : FVec Ideal S2048 .f32 := V m c main_arg2

/-- STEP `t` WRITES BLOCK `t` OF `G` of the argument arrays: entry (p, q) of each block it is given is entry
    (512·t + p, q) of x, entry q of w and entry q of b, and (512·t + p, q) is where the result block's (p, q) lands. -/
theorem step_writes (c : Dev nD) (t : Fin cfg0.N) :
    (dats m 0 c).flushed 3 t
      = ((cfg0.win 3).blk t).view.read (Elt Ideal) (G (V m c main_arg0) (V m c main_arg1) (V m c main_arg2)) := by
  rw [Value.flushed3]
  obtain ⟨h00, h01, h1, h2, h30, h31⟩ := index_facts t
  refine funext fun (j : S512x2048.Idx) => ?_
  show out0_3 (iblk m c 0 t) (iblk m c 1 t) (iblk m c 2 t) j
    = G (V m c main_arg0) (V m c main_arg1) (V m c main_arg2) (((cfg0.win 3).blk t).view.emb j)
  refine (block_apply (iblk m c 0 t) (iblk m c 1 t) (iblk m c 2 t) j).trans ?_
  have hj0 : (j 0).val < 512 := (j 0).isLt
  have hj1 : (j 1).val < 2048 := (j 1).isLt
  have e0 : ((cfg0.win 0).blk t).view.emb j = ((cfg0.win 3).blk t).view.emb j := by
    funext a; apply Fin.ext
    match a with
    | ⟨0, _⟩ => show win0_0.index t (0 : Fin 2) * 512 + 1 * (j 0).val = win0_3.index t (0 : Fin 2) * 512 + 1 * (j 0).val; omega
    | ⟨1, _⟩ => show win0_0.index t (1 : Fin 2) * 2048 + 1 * (j 1).val = win0_3.index t (1 : Fin 2) * 2048 + 1 * (j 1).val; omega
  have e1 : ((cfg0.win 1).blk t).view.emb (bcol j) = col (((cfg0.win 3).blk t).view.emb j) := by
    funext a; apply Fin.ext
    match a with
    | ⟨0, _⟩ => show win0_1.index t (0 : Fin 1) * 2048 + 1 * (j 1).val = win0_3.index t (1 : Fin 2) * 2048 + 1 * (j 1).val; omega
  have e2 : ((cfg0.win 2).blk t).view.emb (bcol j) = col (((cfg0.win 3).blk t).view.emb j) := by
    funext a; apply Fin.ext
    match a with
    | ⟨0, _⟩ => show win0_2.index t (0 : Fin 1) * 2048 + 1 * (j 1).val = win0_3.index t (1 : Fin 2) * 2048 + 1 * (j 1).val; omega
  show Ideal.logistic (Ideal.ofBits .f32 0x40800000#32
      * (xarr m c (((cfg0.win 0).blk t).view.emb j) * warr m c (((cfg0.win 1).blk t).view.emb (bcol j))
          + barr m c (((cfg0.win 2).blk t).view.emb (bcol j))))
    = Ideal.logistic (Ideal.ofBits .f32 0x40800000#32
      * (xarr m c (((cfg0.win 3).blk t).view.emb j) * warr m c (col (((cfg0.win 3).blk t).view.emb j))
          + barr m c (col (((cfg0.win 3).blk t).view.emb j))))
  rw [e0, e1, e2]

/-- An index of the result array is in step `t`'s block iff each coordinate is in the block's range on its axis. -/
theorem mem_block (t : Fin cfg0.N) (i : S32768x2048.Idx) :
    i ∈ ((cfg0.win 3).blk t).view.set
      ↔ ∀ a : Fin 2, win0_3.index t a * S512x2048.size a ≤ (i a).val
          ∧ (i a).val < win0_3.index t a * S512x2048.size a + S512x2048.size a := by
  show i ∈ ((View.whole main_v0).slice (win0_3.rect t)).set ↔ _
  rw [View.set_slice_whole, Rect.mem_set_unit]
  exact Iff.rfl

/-- THE BLOCKS COVER THE ARRAY: row r is in the block of step r / 512 (64 · 512 = 32768 rows), and every block
    spans all 2048 columns. -/
theorem blocks_cover (i : S32768x2048.Idx) :
    ∃ t : Fin cfg0.N, (cfg0.win 3).flush t = true ∧ i ∈ ((cfg0.win 3).blk t).view.set := by
  have hi0 : (i 0).val < 32768 := (i 0).isLt
  have hi1 : (i 1).val < 2048 := (i 1).isLt
  obtain ⟨t, ht⟩ : ∃ t : Fin cfg0.N, t.val = (i 0).val / 512 :=
    ⟨⟨(i 0).val / 512, by show (i 0).val / 512 < 64; omega⟩, rfl⟩
  obtain ⟨-, -, -, -, h30, h31⟩ := index_facts t
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 2048 ≤ (i 1).val ∧ (i 1).val < win0_3.index t (1 : Fin 2) * 2048 + 2048; omega

/-- THE RESULT ARRAY after the run is `G` of the three argument arrays. -/
theorem result_array (c : Dev nD) :
    (dats m 0 c).arrAt 3 cfg0.N
      = G (m ((c : Thread nD τ).loc main_arg0)) (m ((c : Thread nD τ).loc main_arg1)) (m ((c : Thread nD τ).loc main_arg2)) :=
  (dats m 0 c).arrAt_eq_of_cover 3 (G (V m c main_arg0) (V m c main_arg1) (V m c main_arg2))
    (fun t _ => step_writes m c t) blocks_cover

/-- The kernel's run: every weakly fair execution ends with the result array at `G` of the arguments and the arguments
    unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_array m c), (h c).2⟩) (Value.run_blocks m ρ)

end Cert.KernelIdeal.ArrayValue

end
-- ==== Proof.RefValue.lean ====
/-
  What the reference computes, at the exact instance.

  The reference works on whole arrays: it lays w out as one row and repeats it down the 32768 rows, multiplies x by it
  entry by entry, does the same with b and adds, multiplies by the constant 4, and then spells the logistic function out:
  negate, exponentiate, add the constant 1, and divide the constant 1 by the sum. Read at one index (r, k) every one of
  these steps looks at one entry of each operand: the repeated row at (r, k) is the vector's entry k, whatever r is.
  So entry (r, k) of its result is 1 / (1 + e^(−4·(x[r,k]·w[k] + b[k]))), which is σ(4·(x[r,k]·w[k] + b[k])) — the
  function `G` — by the definition of σ on the extended reals.
-/
import proofs.«141163_j24807731102291_1_alg».proof.Proof.Gen.ReferenceIdeal.Read
import proofs.«141163_j24807731102291_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.ColumnAffineSigmoid

/-- Through the two broadcasts, entry (r, k) of the repeated weight row is entry k of the weight vector. -/
theorem weight_index (i : S32768x2048.Idx) : idx_main_v0 (idx_main_v1 i) = col i := by
  funext a; match a with | ⟨0, _⟩ => rfl

/-- The same for the bias. -/
theorem bias_index (i : S32768x2048.Idx) : idx_main_v3 (idx_main_v4 i) = col i := by
  funext a; match a with | ⟨0, _⟩ => rfl

/-- THE REFERENCE'S RESULT IS `G`: its last stage read at an index, one operation at a time, is the expanded logistic of
    `4 · (x i · w k + b k)` at the index's column k, and the expansion is the logistic function. -/
theorem result_eq (x : FVec Ideal S32768x2048 .f32) (w b : FVec Ideal S2048 .f32) :
    val_main_v13 (F := Ideal) x w b = G x w b := by
  funext i
  rw [val_main_v13_apply, val_main_v12_apply, val_main_cst_1_apply, val_main_v11_apply, val_main_v10_apply,
    val_main_cst_0_apply, val_main_v9_apply, val_main_v8_apply, val_main_v7_apply, val_main_v6_apply, val_main_cst_apply,
    val_main_v5_apply, val_main_v2_apply, val_main_v1_apply, val_main_v0_apply, val_main_v4_apply, val_main_v3_apply,
    weight_index, bias_index]
  exact (logistic_expanded _).symm

end Cert.ReferenceIdeal.RefValue

end
-- ==== Proof.lean ====
/-
  Both programs compute, at row r and column k of a 32768 × 2048 result, the logistic function of
  4 · (x[r,k] · w[k] + b[k]) on the extended reals (Proof/Spec.lean, the function `G`).

  The kernel does it 512 rows at a time, applying the logistic function as one operation; its result array ends at `G` of
  the argument arrays because each step writes its own block of `G` and the 64 blocks cover the array
  (Proof/KernelValue.lean). The reference does it on whole arrays and spells the logistic function as
  1 / (1 + e^(−y)); read at an index, its result is `G` too (Proof/RefValue.lean). The two runs therefore end with equal
  results from equal arguments. No step uses that the inputs are finite: the two sides are the same expression entry by
  entry, joined only by the definition of the logistic function.

  The three frame claims are the runs themselves with the value dropped, and the idealized kernel is the kernel's own text
  read at the exact instance (no rewrite was applied), so that claim is trivial.
-/
import proofs.«141163_j24807731102291_1_alg».proof.Defs
import proofs.«141163_j24807731102291_1_alg».proof.Proof.Gen.Kernel
import proofs.«141163_j24807731102291_1_alg».proof.Proof.Gen.Kernel.Skeleton
import proofs.«141163_j24807731102291_1_alg».proof.Proof.Gen.Kernel.Launch
import proofs.«141163_j24807731102291_1_alg».proof.Proof.Gen.Kernel.Points
import proofs.«141163_j24807731102291_1_alg».proof.Proof.Gen.Kernel.Frame
import proofs.«141163_j24807731102291_1_alg».proof.Proof.Gen.KernelIdeal
import proofs.«141163_j24807731102291_1_alg».proof.Proof.Gen.KernelIdeal.Skeleton
import proofs.«141163_j24807731102291_1_alg».proof.Proof.Gen.KernelIdeal.Launch
import proofs.«141163_j24807731102291_1_alg».proof.Proof.Gen.KernelIdeal.Points
import proofs.«141163_j24807731102291_1_alg».proof.Proof.Gen.KernelIdeal.Frame
import proofs.«141163_j24807731102291_1_alg».proof.Proof.Gen.KernelIdeal.Value
import proofs.«141163_j24807731102291_1_alg».proof.Proof.Gen.ReferenceIdeal
import proofs.«141163_j24807731102291_1_alg».proof.Proof.Gen.ReferenceIdeal.Run
import proofs.«141163_j24807731102291_1_alg».proof.Proof.Gen.ReferenceIdeal.Read
import proofs.«141163_j24807731102291_1_alg».proof.Proof.Gen.Pre_finite_inputs
import Idealize.ShloMosaic.Adequacy
import Idealize.ShloMosaic.Init

import proofs.«141163_j24807731102291_1_alg».proof.Proof.Spec
import proofs.«141163_j24807731102291_1_alg».proof.Proof.KernelValue
import proofs.«141163_j24807731102291_1_alg».proof.Proof.RefValue

noncomputable section

namespace Cert.Proof

open Idealize.ShloMosaic Idealize.ShloMosaic.TcCoe Idealize.SL.Sem

/-- The word-level kernel terminates without a fault and leaves its arguments unchanged. -/
theorem frame_kernel [Cert.Kernel.Facts] [Cert.Pre_finite_inputs.Facts] : Cert.frame_Kernel :=
  fun m ρ _ => Cert.Kernel.Gen.frame m ρ

/-- So does the kernel read at the exact instance. -/
theorem frame_kernelIdeal [Cert.KernelIdeal.Facts] [Cert.Pre_finite_inputs.Facts] : Cert.frame_KernelIdeal :=
  fun m ρ _ => Cert.KernelIdeal.Gen.frame m ρ

/-- The reference's frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From memories that agree on x, w and b, the kernel's result array ends at `G` of the kernel's arguments, and the
    reference's at `G` of its own, which are the same arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
